-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x64 : Shape := ⟨2, ![800000, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg7 : FVec F S128 .f32) (main_arg8 : IVec S800000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 4294917296#32
  let main_v39 : IVec S800000 32 := broadcastInDim S800000 ![] bcast_S_S800000 main_c_14
  let main_v40 : IVec S800000 1 := cmpi .sge main_arg8 main_v39
  let main_c_15 : IVec S_ 1 := constantI S_ 1 1#1
  let main_v41 : IVec S_ 1 := (fun x v => Host.reduce IntOp.andi x v reducesTo_S800000_S_d0 h_S_) main_v40 main_c_15
  let main_v42 : IVec S_ 1 := andi main_v38 main_v41
  let main_c_16 : IVec S_ 32 := constantI S_ 32 50000#32
  let main_v43 : IVec S800000 32 := broadcastInDim S800000 ![] bcast_S_S800000 main_c_16
  let main_v44 : IVec S800000 1 := cmpi .slt main_arg8 main_v43
  let main_c_17 : IVec S_ 1 := constantI S_ 1 1#1
  let main_v45 : IVec S_ 1 := (fun x v => Host.reduce IntOp.andi x v reducesTo_S800000_S_d0 h_S_) main_v44 main_c_17
  let main_v46 : IVec S_ 1 := andi main_v42 main_v45
  main_v46

def fn_part1 {F : FTy → Type} [FloatOps F] (main_arg4 : FVec F S64x128 .f32) (main_arg5 : FVec F S128 .f32) (main_arg6 : FVec F S128x128 .f32) (main_arg7 : FVec F S128 .f32) (main_arg8 : IVec S800000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S800000x64 .f32) (main_arg2 : FVec F S64x64 .f32) (main_arg3 : FVec F S64 .f32) (main_arg4 : FVec F S64x128 .f32) (main_arg5 : FVec F S128 .f32) (main_arg6 : FVec F S128x128 .f32) (main_arg7 : FVec F S128 .f32) (main_arg8 : IVec S800000 32) (main_arg9 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S800000x64 : Shape := ⟨2, ![800000, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x64 : Shape := ⟨2, ![1, 64]⟩
abbrev S1x128 : Shape := ⟨2, ![1, 128]⟩
abbrev S8000x64 : Shape := ⟨2, ![8000, 64]⟩
abbrev S8000x128 : Shape := ⟨2, ![8000, 128]⟩
abbrev S5000x128 : Shape := ⟨2, ![5000, 128]⟩

abbrev nBuf : Space → Nat
  | .hbm => 43
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S64x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S1, .i32⟩
  | .hbm, ⟨19, _⟩ => ⟨S_, .i32⟩
  | .hbm, ⟨20, _⟩ => ⟨S800000x1, .i32⟩
  | .hbm, ⟨21, _⟩ => ⟨S800000x1, .i1⟩
  | .hbm, ⟨22, _⟩ => ⟨S1x1, .i32⟩
  | .hbm, ⟨23, _⟩ => ⟨S800000x1, .i32⟩
  | .hbm, ⟨24, _⟩ => ⟨S800000x1, .i1⟩
  | .hbm, ⟨25, _⟩ => ⟨S800000x1, .i1⟩
  | .hbm, ⟨26, _⟩ => ⟨S_, .i1⟩
  | .hbm, ⟨27, _⟩ => ⟨S800000, .i1⟩
  | .hbm, ⟨28, _⟩ => ⟨S800000x128, .f32⟩
  | .hbm, ⟨29, _⟩ => ⟨S800000x128, .i1⟩
  | .hbm, ⟨30, _⟩ => ⟨S_, .f32⟩
  | .hbm, ⟨31, _⟩ => ⟨S800000x128, .f32⟩
  | .hbm, ⟨32, _⟩ => ⟨S800000x128, .f32⟩
  | .hbm, ⟨33, _⟩ => ⟨S1x64, .f32⟩
  | .hbm, ⟨34, _⟩ => ⟨S1x128, .f32⟩
  | .hbm, ⟨35, _⟩ => ⟨S800000x128, .bf16⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S1x128, .f32⟩
  | .hbm, ⟨42, _⟩ => ⟨S50000x128, .f32⟩
  | .local _ .vmem, ⟨0, _⟩ => ⟨S8000x64, .f32⟩
  | .local _ .vmem, ⟨1, _⟩ => ⟨S8000x64, .f32⟩
  | .local _ .vmem, ⟨2, _⟩ => ⟨S8000x128, .f32⟩
  | .local _ .vmem, ⟨3, _⟩ => ⟨S8000x128, .f32⟩
  | .local _ .vmem, ⟨4, _⟩ => ⟨S64x64, .f32⟩
  | .local _ .vmem, ⟨5, _⟩ => ⟨S1x64, .f32⟩
  | .local _ .vmem, ⟨6, _⟩ => ⟨S64x128, .f32⟩
  | .local _ .vmem, ⟨7, _⟩ => ⟨S1x128, .f32⟩
  | .local _ .vmem, ⟨8, _⟩ => ⟨S8000x128, .bf16⟩
  | .local _ .vmem, ⟨9, _⟩ => ⟨S8000x128, .bf16⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_cst : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  shapeCasts_S64_S1x64 : S64.ShapeCasts S1x64
  shapeCasts_S128_S1x128 : S128.ShapeCasts S1x128
  inb_S8000x64_S8000x64_0_0 : ∀ a, (![0, 0] : Fin 2 → Nat) a + S8000x64.size a ≤ S8000x64.size a
  h_S8000x64 : 0 < S8000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  packedbf16_S8000x128_S8000x128_0_0 : (Rect.unit (s := S8000x128) ![0, 0] S8000x128.size inb_S8000x128_S8000x128_0_0).PackedRows (EltTy.packing .bf16)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S8000x64_S64x64_S8000x64_1_0_0_1_n_n_wf : DotDims.WF S8000x64 S64x64 S8000x64 [1] [0] [0] [1] [] []
  dot_S8000x64_S64x128_S8000x128_1_0_0_1_n_n_wf : DotDims.WF S8000x64 S64x128 S8000x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .f32 = 32 ∨ (Rect.block (s := S800000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x128.size a ≤ S800000x128.size a
  hwx0_6 : ∀ i : grid0.Coords, EltTy.bits .bf16 = 32 ∨ (Rect.block (s := S800000x128) S8000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg1) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S8000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x64 : Shape := ⟨2, ![800000, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S800000 : Shape := ⟨1, ![800000]⟩
abbrev S1x64 : Shape := ⟨2, ![1, 64]⟩
abbrev S_ : Shape := ⟨0, ![]⟩
abbrev S800000x128 : Shape := ⟨2, ![800000, 128]⟩
abbrev S1x128 : Shape := ⟨2, ![1, 128]⟩
abbrev S800000x1 : Shape := ⟨2, ![800000, 1]⟩

abbrev nBuf : Space → Nat
  | .hbm => 49
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S64x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S800000, .i32⟩
  | .hbm, ⟨9, _⟩ => ⟨S800000, .i32⟩
  | .hbm, ⟨10, _⟩ => ⟨S800000x64, .f32⟩
  | .hbm, ⟨11, _⟩ => ⟨S1x64, .f32⟩
  | .hbm, ⟨12, _⟩ => ⟨S800000x64, .f32⟩
  | .hbm, ⟨13, _⟩ => ⟨S800000x64, .f32⟩
  | .hbm, ⟨14, _⟩ => ⟨S_, .f32⟩
  | .hbm, ⟨15, _⟩ => ⟨S800000x64, .f32⟩
  | .hbm, ⟨16, _⟩ => ⟨S800000x64, .f32⟩
  | .hbm, ⟨17, _⟩ => ⟨S800000x128, .f32⟩
  | .hbm, ⟨18, _⟩ => ⟨S1x128, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S800000x128, .f32⟩
  | .hbm, ⟨23, _⟩ => ⟨S800000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S_, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call2_cst : Ref sig .tc := ⟨.hbm, 34, rfl⟩
abbrev main_call2_v0 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_1 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  dot_S800000x64_S64x64_S800000x64_1_0_0_1_n_n_wf : DotDims.WF S800000x64 S64x64 S800000x64 [1] [0] [0] [1] [] []
  dot_S800000x64_S64x128_S800000x128_1_0_0_1_n_n_wf : DotDims.WF S800000x64 S64x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.PreRange.lean ====
/-
  What the precondition says of the source indices: every entry of `src`, read as a signed word, lies in
  [-50000, 50000) — the indices numpy accepts for an axis of 50000 rows, a negative one counting from the end. The
  printed predicate ends in two `all`s joined to the finiteness tests by `and`: `all (src ≥ -50000)` and
  `all (src < 50000)`; an `and` that is 1 had both operands 1, an `all` that is 1 had every element 1, and a signed
  comparison that is 1 orders its operands as integers.
-/
import proofs.«417726_j42691974922448_3_alg».proof.Pre_finite_inputs
import proofs.«417726_j42691974922448_3_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Range

open Cert.Pre_finite_inputs Cert.Pre_finite_inputs.Gen Idealize.ShloMosaic

instance : Subsingleton S_.Idx := ⟨fun a b => funext fun d => d.elim0⟩

/-- Under the precondition every source index is a signed word in [-50000, 50000). -/
theorem src_range (a0 : FVec Ideal S50000x128 .f32) (a1 : FVec Ideal S800000x64 .f32) (a2 : FVec Ideal S64x64 .f32)
    (a3 : FVec Ideal S64 .f32) (a4 : FVec Ideal S64x128 .f32) (a5 : FVec Ideal S128 .f32) (a6 : FVec Ideal S128x128 .f32)
    (a7 : FVec Ideal S128 .f32) (a8 : IVec S800000 32) (a9 : IVec S800000 32)
    (h : fn (F := Ideal) a0 a1 a2 a3 a4 a5 a6 a7 a8 a9 = fun _ => 1#1) (i : S800000.Idx) :
    (-50000 : Int) ≤ (a8 i).toInt ∧ (a8 i).toInt < 50000 := by
  have h0 := congrFun h ValueIdx.ix0
  dsimp only [fn, fn_part1, fn_part2] at h0
  obtain ⟨h1, h45⟩ := IntOp.andi_eq_one.1 h0
  obtain ⟨-, h41⟩ := IntOp.andi_eq_one.1 h1
  have ge := Host.reduce_andi_all _ _ _ _ _ h41 i
  have lt := Host.reduce_andi_all _ _ _ _ _ h45 i
  have ge' : (4294917296#32 : BitVec 32).toInt ≤ (a8 i).toInt := IntOp.cmpi_sge.1 ge
  have lt' : (a8 i).toInt < (50000#32 : BitVec 32).toInt := IntOp.cmpi_slt.1 lt
  have e1 : (4294917296#32 : BitVec 32).toInt = -50000 := by decide
  have e2 : (50000#32 : BitVec 32).toInt = 50000 := by decide
  omega

end Cert.Pre_finite_inputs.Range

end
-- ==== Proof.Spec.lean ====
/-
  The arithmetic of one GINE layer, row by row, on the extended reals.

  An edge's message depends on that edge's own feature row `e` (64 numbers) and on ONE entry `x` of the node row its
  source index selects: with `h k = max (∑ j, e j · W0 j k + b0 k) 0` the hidden layer and
  `u q = max (∑ k, h k · W1 k q + b1 q) 0` the transformed edge feature, the message at feature `q` is
  `max (x + u q) 0`. A node's output depends on its own row `n` and its aggregated row `g`:
  `∑ k, (n k · 1 + g k) · Wa k q + ba q`. Both are plain finite sums and maxima: no law that needs finiteness is used
  anywhere, only that the two programs evaluate the SAME expression at each index, whatever their tiling of the rows.
  The zero and the one are kept as parameters (`z`, `one`): both programs carry the same two words.
-/
import Idealize.ShloMosaic.PureOps.Ideal
import Idealize.ShloMosaic.Lib.ValueIdx

noncomputable section

namespace Cert.Gine

open Idealize.ShloMosaic Idealize.ShloMosaic.ValueIdx

/-- One edge's message at feature `q`, from the edge's feature row `e` and the entry `x` of its source node's row. -/
def edgeMsg (z : EReal) (e : Fin 64 → EReal) (x : EReal) (W0 : Fin 64 → Fin 64 → EReal) (b0 : Fin 64 → EReal)
    (W1 : Fin 64 → Fin 128 → EReal) (b1 : Fin 128 → EReal) (q : Fin 128) : EReal :=
  max (x + max ((∑ k : Fin 64, max ((∑ j : Fin 64, e j * W0 j k) + b0 k) z * W1 k q) + b1 q) z) z

/-- One node's output at feature `q`, from the node's own row `n` and its aggregated messages `g`. -/
def nodeOut (one : EReal) (n g : Fin 128 → EReal) (Wa : Fin 128 → Fin 128 → EReal) (ba : Fin 128 → EReal)
    (q : Fin 128) : EReal :=
  (∑ k : Fin 128, (n k * one + g k) * Wa k q) + ba q

/-- All 800000 messages: row `i 0` of `E` and entry `i` of the gathered node rows `X`. -/
def messages (z : EReal) (E : (⟨2, ![800000, 64]⟩ : Shape).Idx → EReal) (X : (⟨2, ![800000, 128]⟩ : Shape).Idx → EReal)
    (W0 : (⟨2, ![64, 64]⟩ : Shape).Idx → EReal) (b0 : Fin 64 → EReal)
    (W1 : (⟨2, ![64, 128]⟩ : Shape).Idx → EReal) (b1 : Fin 128 → EReal) :
    (⟨2, ![800000, 128]⟩ : Shape).Idx → EReal :=
  fun i => edgeMsg z (fun j => E (ix2 (⟨(i 0).val, idx2_lt0 i⟩ : Fin 800000) j)) (X i) (fun j k => W0 (ix2 j k)) b0
    (fun k q => W1 (ix2 k q)) b1 (⟨(i 1).val, idx2_lt1 i⟩ : Fin 128)

/-- All 50000 output rows: row `i 0` of the node features `N` and of the aggregate `G`. -/
def outputs (one : EReal) (N G : (⟨2, ![50000, 128]⟩ : Shape).Idx → EReal)
    (Wa : (⟨2, ![128, 128]⟩ : Shape).Idx → EReal) (ba : Fin 128 → EReal) :
    (⟨2, ![50000, 128]⟩ : Shape).Idx → EReal :=
  fun i => nodeOut one (fun k => N (ix2 (⟨(i 0).val, idx2_lt0 i⟩ : Fin 50000) k))
    (fun k => G (ix2 (⟨(i 0).val, idx2_lt0 i⟩ : Fin 50000) k)) (fun k q => Wa (ix2 k q)) ba (⟨(i 1).val, idx2_lt1 i⟩ : Fin 128)

end Cert.Gine

end
-- ==== Proof.Take.lean ====
/-
  The kernel's row gather. `jnp.take` wraps a negative index once (`s < 0 ↦ s + 50000`), gathers the rows, and then
  REPLACES every row whose wrapped index is outside [0, 49999] by a not-a-number fill; the reference's `node_feat[src]`
  wraps the same way and gathers, with no fill. When every source index is a signed word in [-50000, 50000) the wrapped
  index is in [0, 49999], the test is true on every row, and the take IS the gather: the fill is never selected.
  The gather itself is the same operation on the same start indices in both programs, and is never opened.
-/
import proofs.«417726_j42691974922448_3_alg».proof.KernelIdeal
import proofs.«417726_j42691974922448_3_alg».proof.Proof.Gen.KernelIdeal
import Idealize.ShloMosaic.PureOps.Ideal
import Idealize.ShloMosaic.PureOps.Reduce
import Idealize.ShloMosaic.Lib.ReduceAll
import Idealize.ShloMosaic.Lib.ValueIdx

noncomputable section

namespace Cert.KernelIdeal.Take

open Cert.KernelIdeal Cert.KernelIdeal.Gen Idealize.ShloMosaic

/-! ## One word -/

/-- A signed word in [-50000, 50000), wrapped once, passes the test `0 ≤ · ≤ 49999`. -/
theorem wrapped_in_range (s : BitVec 32) (h1 : (-50000 : Int) ≤ s.toInt) (h2 : s.toInt < 50000) :
    IntOp.andi (IntOp.cmpi .sge (Scalar.select (IntOp.cmpi .slt s 0#32) (IntOp.addi s 50000#32) s) 0#32)
               (IntOp.cmpi .sle (Scalar.select (IntOp.cmpi .slt s 0#32) (IntOp.addi s 50000#32) s) 49999#32) = 1#1 := by
  have z : (0#32 : BitVec 32).toInt = 0 := by decide
  have t : (49999#32 : BitVec 32).toInt = 49999 := by decide
  have f : (50000#32 : BitVec 32).toInt = 50000 := by decide
  by_cases hn : s.toInt < 0
  · have hc : IntOp.cmpi .slt s 0#32 = 1#1 := IntOp.cmpi_slt.2 (by rw [z]; exact hn)
    rw [hc, ValueIdx.select_one]
    have ha : (IntOp.addi s 50000#32).toInt = s.toInt + 50000 := by
      show (s + 50000#32).toInt = _
      rw [BitVec.toInt_add, f]
      unfold Int.bmod
      simp only []
      split <;> omega
    exact IntOp.andi_eq_one.2 ⟨IntOp.cmpi_sge.2 (by rw [z, ha]; omega), IntOp.cmpi_sle.2 (by rw [t, ha]; omega)⟩
  · have hc : IntOp.cmpi .slt s 0#32 = 0#1 :=
      ValueIdx.eq_zero_of_ne_one (fun e => hn (by have := IntOp.cmpi_slt.1 e; rw [z] at this; exact this))
    rw [hc, ValueIdx.select_zero]
    exact IntOp.andi_eq_one.2 ⟨IntOp.cmpi_sge.2 (by rw [z]; omega), IntOp.cmpi_sle.2 (by rw [t]; omega)⟩

/-- A left fold by `and` from 1 over words that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hf => by
    rw [List.foldl_cons]
    exact foldl_andi_ones f l _ (IntOp.andi_eq_one.2 ⟨hi, hf a (List.mem_cons_self ..)⟩) (fun n hn => hf n (List.mem_cons_of_mem _ hn))

/-! ## The arrays -/

/-- The start indices both programs gather at: each source index wrapped once, as a column. -/
def wrapIdx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The kernel's test of a wrapped index: `0 ≤ · ∧ · ≤ 49999`. -/
def inRange (s : IVec S800000 32) : IVec S800000x1 1 :=
  andi (cmpi .sge (wrapIdx s) (broadcastInDim S800000x1 ![] bcast_S_S800000x1 (constantI S_ 32 0#32)))
    (cmpi .sle (wrapIdx s) (broadcastInDim S800000x1 ![0, 1] bcast_S1x1_S800000x1_0_1
      (broadcastInDim S1x1 ![1] bcast_S1_S1x1_1 (constantI S1 32 49999#32))))

/-- The kernel's take: the gathered rows where the test holds, the fill elsewhere. -/
def takeRows (x : FVec Ideal S50000x128 .f32) (s : IVec S800000 32) : FVec Ideal S800000x128 .f32 :=
  select (broadcastInDim S800000x128 ![0] bcast_S800000_S800000x128_0
      (Host.reduce IntOp.andi (inRange s) (constantI S_ 1 1#1) reducesTo_S800000x1_S800000_d1 h_S_))
    (Host.gather gather_S50000x128_S800000x1_S800000x128_1_0_n_n_0_1_1128 x (wrapIdx s))
    (broadcastInDim S800000x128 ![] bcast_S_S800000x128 (constant S_ .f32 0x7FC00000#32))

section
variable (s : IVec S800000 32) (hs : ∀ i : S800000.Idx, (-50000 : Int) ≤ (s i).toInt ∧ (s i).toInt < 50000)
include hs

/-- The test holds at every row. -/
theorem inRange_one (i : S800000x1.Idx) : inRange s i = 1#1 := by
  unfold inRange wrapIdx
  exact wrapped_in_range _ (hs _).1 (hs _).2

/-- So its `and` along the column's one position is 1 at every row. -/
theorem all_one (p : S800000.Idx) :
    Host.reduce IntOp.andi (inRange s) (constantI S_ 1 1#1) reducesTo_S800000x1_S800000_d1 h_S_ p = 1#1 := by
  rw [Host.reduce_eq_foldl]
  exact foldl_andi_ones (inRange s) _ _ rfl (fun n _ => inRange_one s hs n)

/-- THE TAKE IS THE GATHER when the source indices are in range. -/
theorem takeRows_eq (x : FVec Ideal S50000x128 .f32) :
    takeRows x s = Host.gather gather_S50000x128_S800000x1_S800000x128_1_0_n_n_0_1_1128 x (wrapIdx s) := by
  funext j
  unfold takeRows
  rw [ValueIdx.select_apply]
  have hm : broadcastInDim S800000x128 ![0] bcast_S800000_S800000x128_0
      (Host.reduce IntOp.andi (inRange s) (constantI S_ 1 1#1) reducesTo_S800000x1_S800000_d1 h_S_) j = 1#1 :=
    all_one s hs _
  rw [hm, ValueIdx.select_one]

end

end Cert.KernelIdeal.Take

end
-- ==== Proof.EdgeValue.lean ====
/-
  The first launch (a hundred blocks of 8000 edge rows): what its output array holds when it ends, as ONE function of the
  arrays the launch finds. Block `t` of the output is rows `8000·t … 8000·t + 7999`. For each of its rows the body runs
  the two-layer edge transform on that row of the edge features (hidden layer `max (e·W0 + b0) 0`, then
  `max (h·W1 + b1) 0`), adds the same row of the gathered node features and takes `max · 0` again. Narrowing to sixteen
  bits and back is the identity on the extended reals. So every block is the restriction of `Cert.Gine.messages` of the
  whole arrays, and the hundred blocks tile the 800000 rows.
-/
import proofs.«417726_j42691974922448_3_alg».proof.Proof.Gen.KernelIdeal.Frame
import proofs.«417726_j42691974922448_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.EdgeValue

open Cert.KernelIdeal Cert.KernelIdeal.Gen Idealize.ShloMosaic Idealize.ShloMosaic.TcCoe Idealize.SL.Sem
open Idealize.ShloMosaic.ValueIdx
open Idealize.ShloMosaic.Pipeline (Dat Cfg Window)

/-! ## The body's two matrix products at an index -/

theorem hid_lhs_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem hid_lhs_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem hid_rhs_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem hid_rhs_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- The hidden layer's product: row `p`, column `q`, summed over the 64 input features. -/
theorem hid_apply (l : FVec Ideal S8000x64 .bf16) (r : FVec Ideal S64x64 .bf16) (p : Fin 8000) (q : Fin 64) :
    matmul dot_S8000x64_S64x64_S8000x64_1_0_0_1_n_n none l r (constant S8000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx (ix2 p q) ((ValueIdx.contrEquiv1 dot_S8000x64_S64x64_S8000x64_1_0_0_1_n_n 64 rfl rfl).symm k) = ix2 p k := funext fun a => Fin.ext (by
    match a with
    | ⟨0, _⟩ => exact hid_lhs_0 _ _
    | ⟨1, _⟩ => exact (hid_lhs_1 _ _).trans hk)
  have er : dot_S8000x64_S64x64_S8000x64_1_0_0_1_n_n.rhsIdx (ix2 p q) ((ValueIdx.contrEquiv1 dot_S8000x64_S64x64_S8000x64_1_0_0_1_n_n 64 rfl rfl).symm k) = ix2 k q := funext fun a => Fin.ext (by
    match a with
    | ⟨0, _⟩ => exact (hid_rhs_0 _ _).trans hk
    | ⟨1, _⟩ => exact hid_rhs_1 _ _)
  rw [el, er]

theorem outp_lhs_0 (i : S8000x128.Idx) (q : dot_S8000x64_S64x128_S8000x128_1_0_0_1_n_n.contr.Idx) :
    (dot_S8000x64_S64x128_S8000x128_1_0_0_1_n_n.lhsIdx i q 0).val = (i 0).val := by
  unfold DotDims.lhsIdx
  rw [dif_neg (show ¬(0 : Fin S8000x64.rank) ∈ dot_S8000x64_S64x128_S8000x128_1_0_0_1_n_n.lhsBatch by decide), dif_pos (show (0 : Fin S8000x64.rank) ∈ dot_S8000x64_S64x128_S8000x128_1_0_0_1_n_n.lhsNonContracting by decide)]
  rfl
theorem outp_lhs_1 (i : S8000x128.Idx) (q : dot_S8000x64_S64x128_S8000x128_1_0_0_1_n_n.contr.Idx) :
    (dot_S8000x64_S64x128_S8000x128_1_0_0_1_n_n.lhsIdx i q 1).val = (q ⟨0, by decide⟩).val :=
  dot_S8000x64_S64x128_S8000x128_1_0_0_1_n_n.lhsIdx_val_of_single rfl i q
theorem outp_rhs_0 (i : S8000x128.Idx) (q : dot_S8000x64_S64x128_S8000x128_1_0_0_1_n_n.contr.Idx) :
    (dot_S8000x64_S64x128_S8000x128_1_0_0_1_n_n.rhsIdx i q 0).val = (q ⟨0, by decide⟩).val :=
  dot_S8000x64_S64x128_S8000x128_1_0_0_1_n_n.rhsIdx_val_of_single rfl i q
theorem outp_rhs_1 (i : S8000x128.Idx) (q : dot_S8000x64_S64x128_S8000x128_1_0_0_1_n_n.contr.Idx) :
    (dot_S8000x64_S64x128_S8000x128_1_0_0_1_n_n.rhsIdx i q 1).val = (i 1).val := by
  unfold DotDims.rhsIdx
  rw [dif_neg (show ¬(1 : Fin S64x128.rank) ∈ dot_S8000x64_S64x128_S8000x128_1_0_0_1_n_n.rhsBatch by decide), dif_pos (show (1 : Fin S64x128.rank) ∈ dot_S8000x64_S64x128_S8000x128_1_0_0_1_n_n.rhsNonContracting by decide)]
  rfl

/-- The second layer's product: row `p`, column `q`, summed over the 64 hidden features. -/
theorem outp_apply (l : FVec Ideal S8000x64 .bf16) (r : FVec Ideal S64x128 .bf16) (p : Fin 8000) (q : Fin 128) :
    matmul dot_S8000x64_S64x128_S8000x128_1_0_0_1_n_n none l r (constant S8000x128 .f32 0x00000000#32) (ix2 p q)
      = ∑ k : Fin 64, l (ix2 p k) * r (ix2 k q) := by
  simp only [matmul]
  rw [Ideal.matmul_constant_zero_apply, ← Equiv.sum_comp (ValueIdx.contrEquiv1 dot_S8000x64_S64x128_S8000x128_1_0_0_1_n_n 64 rfl rfl).symm]
  refine Finset.sum_congr rfl fun k _ => ?_
  have hk := ValueIdx.contrEquiv1_symm_val dot_S8000x64_S64x128_S8000x128_1_0_0_1_n_n 64 rfl rfl k
  have el : dot_S8000x64_S64x128_S8000x128_1_0_0_1_n_n.lhsIdx (ix2 p q) ((ValueIdx.contrEquiv1 dot_S8000x64_S64x128_S8000x128_1_0_0_1_n_n 64 rfl rfl).symm k) = ix2 p k := funext fun a => Fin.ext (by
    match a with
    | ⟨0, _⟩ => exact outp_lhs_0 _ _
    | ⟨1, _⟩ => exact (outp_lhs_1 _ _).trans hk)
  have er : dot_S8000x64_S64x128_S8000x128_1_0_0_1_n_n.rhsIdx (ix2 p q) ((ValueIdx.contrEquiv1 dot_S8000x64_S64x128_S8000x128_1_0_0_1_n_n 64 rfl rfl).symm k) = ix2 k q := funext fun a => Fin.ext (by
    match a with
    | ⟨0, _⟩ => exact (outp_rhs_0 _ _).trans hk
    | ⟨1, _⟩ => exact outp_rhs_1 _ _)
  rw [el, er]

/-! ## The body's one store, at an index of the block -/

/-- A bias row laid over all rows reads, at row `p`, column `k`, the bias at column `k`. -/
theorem bias64 (v : Vec Ideal S1x64 .f32) (p : Fin 8000) (k : Fin 64) :
    broadcastTo S8000x64 (shapeCast S1x64 v shapeCasts_S1x64_S1x64) broadcasts_S1x64_S8000x64 (ix2 p k) = v (ix2 (0 : Fin 1) k) := by
  rw [shapeCast_self]
  exact broadcastTo_apply v _ (ix2 p k) (ix2 (0 : Fin 1) k) (fun a => by
    match a with
    | ⟨0, _⟩ => show 0 = if (1 : Nat) = 1 then 0 else _; rw [if_pos rfl]
    | ⟨1, _⟩ => show k.val = if (64 : Nat) = 1 then 0 else k.val; rw [if_neg (by decide)])

theorem bias128 (v : Vec Ideal S1x128 .f32) (p : Fin 8000) (q : Fin 128) :
    broadcastTo S8000x128 (shapeCast S1x128 v shapeCasts_S1x128_S1x128) broadcasts_S1x128_S8000x128 (ix2 p q) = v (ix2 (0 : Fin 1) q) := by
  rw [shapeCast_self]
  exact broadcastTo_apply v _ (ix2 p q) (ix2 (0 : Fin 1) q) (fun a => by
    match a with
    | ⟨0, _⟩ => show 0 = if (1 : Nat) = 1 then 0 else _; rw [if_pos rfl]
    | ⟨1, _⟩ => show q.val = if (128 : Nat) = 1 then 0 else q.val; rw [if_neg (by decide)])

/-- What the body stores at row `p`, column `q` of its block is the edge's message from row `p` of the edge-feature block
    and entry (`p`, `q`) of the gathered block. -/
theorem pay_apply (v0 : Vec Ideal S8000x64 .f32) (v2 : Vec Ideal S64x64 .f32) (v5 : Vec Ideal S1x64 .f32)
    (v12 : Vec Ideal S64x128 .f32) (v15 : Vec Ideal S1x128 .f32) (v21 : Vec Ideal S8000x128 .f32)
    (p : Fin 8000) (q : Fin 128) :
    k0_pay1 (F := Ideal) v0 v2 v5 v12 v15 v21 (ix2 p q)
      = Cert.Gine.edgeMsg (Ideal.ofBits .f32 0x00000000#32) (fun j => v0 (ix2 p j)) (v21 (ix2 p q))
          (fun j k => v2 (ix2 j k)) (fun k => v5 (ix2 (0 : Fin 1) k)) (fun k q => v12 (ix2 k q))
          (fun q => v15 (ix2 (0 : Fin 1) q)) q := by
  unfold k0_pay1 Cert.Gine.edgeMsg
  dsimp only
  rw [truncf_apply, maximumf_apply, addf_apply, shapeCast_self, maximumf_apply, addf_apply, outp_apply, bias128]
  refine congrArg₂ max (congrArg₂ (· + ·) rfl (congrArg₂ max (congrArg₂ (· + ·) (Finset.sum_congr rfl fun k _ => ?_) rfl) rfl)) rfl
  refine congrArg₂ (· * ·) ?_ rfl
  rw [truncf_apply, maximumf_apply, addf_apply, hid_apply, bias64]
  rfl

/-! ## From the blocks to the array -/

section Blocks
variable (V : (c : Dev nD) → (b : Ref sig .tc) → Buf (Elt Ideal) ((c : Thread nD τ).loc b))

theorem hz : (![0, 0] : Fin 2 → Nat) = fun _ => 0 := funext fun a => by fin_cases a <;> rfl

/-- The printed index maps over the hundred points: the two row-blocked inputs and the output sit at row block `t`,
    column block 0; the two weight matrices and the two bias rows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The message array as one function of the arrays the launch finds: edge features, gathered node rows, the two
    weight matrices and the two bias rows. -/
abbrev msgArr (c : Dev nD) : S800000x128.Idx → EReal :=
  Cert.Gine.messages (Ideal.ofBits .f32 0x00000000#32) (V c main_arg1) (V c main_v0) (V c main_arg2)
    (fun k => V c main_v1 (ix2 (0 : Fin 1) k)) (V c main_arg4) (fun q => V c main_v2 (ix2 (0 : Fin 1) q))

/-- Equal rows, equal messages. -/
theorem edgeMsg_congr (z : EReal) {e e' : Fin 64 → EReal} {x x' : EReal} {W0 W0' : Fin 64 → Fin 64 → EReal}
    {b0 b0' : Fin 64 → EReal} {W1 W1' : Fin 64 → Fin 128 → EReal} {b1 b1' : Fin 128 → EReal} {q q' : Fin 128}
    (he : e = e') (hx : x = x') (hW0 : W0 = W0') (hb0 : b0 = b0') (hW1 : W1 = W1') (hb1 : b1 = b1') (hq : q = q') :
    Cert.Gine.edgeMsg z e x W0 b0 W1 b1 q = Cert.Gine.edgeMsg z e' x' W0' b0' W1' b1' q' := by
  subst he hx hW0 hb0 hW1 hb1 hq; rfl

/-- The body's store at a general index of its block. -/
theorem pay_apply' (v0 : Vec Ideal S8000x64 .f32) (v2 : Vec Ideal S64x64 .f32) (v5 : Vec Ideal S1x64 .f32)
    (v12 : Vec Ideal S64x128 .f32) (v15 : Vec Ideal S1x128 .f32) (v21 : Vec Ideal S8000x128 .f32)
    (j : S8000x128.Idx) :
    k0_pay1 (F := Ideal) v0 v2 v5 v12 v15 v21 j
      = Cert.Gine.edgeMsg (Ideal.ofBits .f32 0x00000000#32)
          (fun i => v0 (ix2 (⟨(j 0).val, idx2_lt0 j⟩ : Fin 8000) i))
          (v21 (ix2 (⟨(j 0).val, idx2_lt0 j⟩ : Fin 8000) (⟨(j 1).val, idx2_lt1 j⟩ : Fin 128)))
          (fun i k => v2 (ix2 i k)) (fun k => v5 (ix2 (0 : Fin 1) k)) (fun k q => v12 (ix2 k q))
          (fun q => v15 (ix2 (0 : Fin 1) q)) (⟨(j 1).val, idx2_lt1 j⟩ : Fin 128) := by
  obtain ⟨p, q, rfl⟩ : ∃ (p : Fin 8000) (q : Fin 128), j = ix2 p q := ⟨j 0, j 1, eq_ix2 j⟩
  exact pay_apply v0 v2 v5 v12 v15 v21 p q

/-- WHAT POINT `t` WRITES BACK is block `t` of `msgArr`. -/
theorem flushed_eq (c : Dev nD) (t : Fin cfg0.N) :
    (dat0 V c).flushed 6 t = ((cfg0.win 6).blk t).view.read (Elt Ideal) (msgArr V c) := by
  show (cfg0.win 6).cut (grid0.coords t) ((dat0 V c).after 6 t) = _
  rw [after0_6]
  unfold out0_6
  rw [View.canon_unit_zero hz]
  simp only [View.ld_unit_zero (S := S8000x64) hz, View.ld_unit_zero (S := S8000x128) hz, View.ld_unit_zero (S := S64x64) hz,
    View.ld_unit_zero (S := S1x64) hz, View.ld_unit_zero (S := S64x128) hz, View.ld_unit_zero (S := S1x128) hz]
  obtain ⟨e00, e01, e10, e11, e20, e21, e30, e31, e40, e41, e50, e51, e60, e61⟩ := idx_facts t
  funext j
  show k0_pay1 (F := Ideal) (iblk0 V c 0 t) (iblk0 V c 2 t) (iblk0 V c 3 t) (iblk0 V c 4 t) (iblk0 V c 5 t) (iblk0 V c 1 t) j
    = msgArr V c (((cfg0.win 6).blk t).view.emb j)
  refine (pay_apply' (iblk0 V c 0 t) (iblk0 V c 2 t) (iblk0 V c 3 t) (iblk0 V c 4 t) (iblk0 V c 5 t) (iblk0 V c 1 t) j).trans ?_
  have hj0 : (j 0).val < 8000 := (j 0).isLt
  have hj1 : (j 1).val < 128 := (j 1).isLt
  refine edgeMsg_congr _ (funext fun i => ?_) ?_ (funext fun i => funext fun k => ?_) (funext fun k => ?_)
    (funext fun k => funext fun q => ?_) (funext fun q => ?_) ?_
  · show V c main_arg1 (((cfg0.win 0).blk t).view.emb (ix2 (⟨(j 0).val, idx2_lt0 j⟩ : Fin 8000) i)) = V c main_arg1 _
    refine congrArg (V c main_arg1) (funext fun a => Fin.ext ?_)
    match a with
    | ⟨0, _⟩ => show win0_0.index t (0 : Fin 2) * 8000 + 1 * (j 0).val = win0_6.index t (0 : Fin 2) * 8000 + 1 * (j 0).val; omega
    | ⟨1, _⟩ => show win0_0.index t (1 : Fin 2) * 64 + 1 * i.val = i.val; omega
  · show V c main_v0 (((cfg0.win 1).blk t).view.emb (ix2 (⟨(j 0).val, idx2_lt0 j⟩ : Fin 8000) (⟨(j 1).val, idx2_lt1 j⟩ : Fin 128))) = V c main_v0 _
    refine congrArg (V c main_v0) (funext fun a => Fin.ext ?_)
    match a with
    | ⟨0, _⟩ => show win0_1.index t (0 : Fin 2) * 8000 + 1 * (j 0).val = win0_6.index t (0 : Fin 2) * 8000 + 1 * (j 0).val; omega
    | ⟨1, _⟩ => show win0_1.index t (1 : Fin 2) * 128 + 1 * (j 1).val = win0_6.index t (1 : Fin 2) * 128 + 1 * (j 1).val; omega
  · show V c main_arg2 (((cfg0.win 2).blk t).view.emb (ix2 i k)) = V c main_arg2 _
    refine congrArg (V c main_arg2) (funext fun a => Fin.ext ?_)
    match a with
    | ⟨0, _⟩ => show win0_2.index t (0 : Fin 2) * 64 + 1 * i.val = i.val; omega
    | ⟨1, _⟩ => show win0_2.index t (1 : Fin 2) * 64 + 1 * k.val = k.val; omega
  · show V c main_v1 (((cfg0.win 3).blk t).view.emb (ix2 (0 : Fin 1) k)) = V c main_v1 _
    refine congrArg (V c main_v1) (funext fun a => Fin.ext ?_)
    match a with
    | ⟨0, _⟩ => show win0_3.index t (0 : Fin 2) * 1 + 1 * 0 = 0; omega
    | ⟨1, _⟩ => show win0_3.index t (1 : Fin 2) * 64 + 1 * k.val = k.val; omega
  · show V c main_arg4 (((cfg0.win 4).blk t).view.emb (ix2 k q)) = V c main_arg4 _
    refine congrArg (V c main_arg4) (funext fun a => Fin.ext ?_)
    match a with
    | ⟨0, _⟩ => show win0_4.index t (0 : Fin 2) * 64 + 1 * k.val = k.val; omega
    | ⟨1, _⟩ => show win0_4.index t (1 : Fin 2) * 128 + 1 * q.val = q.val; omega
  · show V c main_v2 (((cfg0.win 5).blk t).view.emb (ix2 (0 : Fin 1) q)) = V c main_v2 _
    refine congrArg (V c main_v2) (funext fun a => Fin.ext ?_)
    match a with
    | ⟨0, _⟩ => show win0_5.index t (0 : Fin 2) * 1 + 1 * 0 = 0; omega
    | ⟨1, _⟩ => show win0_5.index t (1 : Fin 2) * 128 + 1 * q.val = q.val; omega
  · apply Fin.ext
    show (j 1).val = win0_6.index t (1 : Fin 2) * 128 + 1 * (j 1).val
    omega

/-- An index of the array is in point `t`'s block iff each coordinate is in the block's range on its axis. -/
theorem mem_blk (t : Fin cfg0.N) (i : S800000x128.Idx) :
    i ∈ ((cfg0.win 6).blk t).view.set ↔ ∀ a : Fin 2, win0_6.index t a * S8000x128.size a ≤ (i a).val ∧ (i a).val < win0_6.index t a * S8000x128.size a + S8000x128.size a := by
  show i ∈ ((View.whole main_v3).slice (win0_6.rect t)).set ↔ _
  rw [View.set_slice_whole, Rect.mem_set_unit]
  exact Iff.rfl

/-- Every row of the array lies in the block of the point `row / 8000`. -/
theorem cover (i : S800000x128.Idx) :
    ∃ t : Fin cfg0.N, (cfg0.win 6).flush t = true ∧ i ∈ ((cfg0.win 6).blk t).view.set := by
  have hi0 : (i 0).val < 800000 := (i 0).isLt
  have hi1 : (i 1).val < 128 := (i 1).isLt
  let t : Fin cfg0.N := ⟨(i 0).val / 8000, by show (i 0).val / 8000 < 100; omega⟩
  have ht : t.val = (i 0).val / 8000 := rfl
  obtain ⟨e00, e01, e10, e11, e20, e21, e30, e31, e40, e41, e50, e51, e60, e61⟩ := idx_facts t
  refine ⟨t, flush0_6 t, ?_⟩
  rw [mem_blk]
  intro a
  match a with
  | ⟨0, _⟩ => show win0_6.index t (0 : Fin 2) * 8000 ≤ (i 0).val ∧ (i 0).val < win0_6.index t (0 : Fin 2) * 8000 + 8000; omega
  | ⟨1, _⟩ => show win0_6.index t (1 : Fin 2) * 128 ≤ (i 1).val ∧ (i 1).val < win0_6.index t (1 : Fin 2) * 128 + 128; omega

/-- THE MESSAGE ARRAY when the launch ends. -/
theorem final (c : Dev nD) : (dat0 V c).arrAt 6 cfg0.N = msgArr V c :=
  (dat0 V c).arrAt_eq_of_cover 6 (msgArr V c) (fun t _ => flushed_eq V c t) cover

end Blocks

end Cert.KernelIdeal.EdgeValue

end
-- ==== Proof.ApplyValue.lean ====
/-
  The second launch (ten blocks of 5000 node rows): what its output array holds when it ends, as ONE function of the
  arrays the launch finds. Block `t` of the output is rows `5000·t … 5000·t + 4999`; the body computes, for each of its
  rows, `∑ k, (n k · 1 + g k) · Wa k q + ba q` from the same rows of the node features and of the aggregate, and the
  whole weight matrix. So every block is the restriction of `Cert.Gine.outputs` of the whole arrays, and the ten blocks
  tile the 50000 rows.
-/
import proofs.«417726_j42691974922448_3_alg».proof.Proof.Gen.KernelIdeal.Frame
import proofs.«417726_j42691974922448_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.ApplyValue

open Cert.KernelIdeal Cert.KernelIdeal.Gen Idealize.ShloMosaic Idealize.ShloMosaic.TcCoe Idealize.SL.Sem
open Idealize.ShloMosaic.ValueIdx
open Idealize.ShloMosaic.Pipeline (Dat Cfg Window)

/-! ## The body's matrix product at an index -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `p`, column `q` of the product into a zero accumulator: the sum over the 128 contracted positions. -/
theorem mm_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## The body's one store, at an index of the block -/

/-- What the body stores at row `p`, column `q` of its block is the node's output from row `p` of the two loaded
    blocks, the weights and the bias row. -/
theorem pay_apply (v0 v3 : Vec Ideal S5000x128 .f32) (v7 : Vec Ideal S128x128 .f32) (v10 : Vec Ideal S1x128 .f32)
    (p : Fin 5000) (q : Fin 128) :
    k1_pay1 (F := Ideal) v0 v3 v7 v10 (ix2 p q)
      = Cert.Gine.nodeOut (Ideal.ofBits .f32 0x3F800000#32) (fun k => v0 (ix2 p k)) (fun k => v3 (ix2 p k))
          (fun k q => v7 (ix2 k q)) (fun q => v10 (ix2 (0 : Fin 1) q)) q := by
  unfold k1_pay1 Cert.Gine.nodeOut
  dsimp only
  rw [addf_apply, mm_apply, shapeCast_self, shapeCast_self]
  refine congrArg₂ (· + ·) rfl ?_
  exact broadcastTo_apply v10 _ (ix2 p q) (ix2 (0 : Fin 1) q) (fun a => by
    match a with
    | ⟨0, _⟩ => show 0 = if (1 : Nat) = 1 then 0 else _; rw [if_pos rfl]
    | ⟨1, _⟩ => show q.val = if (128 : Nat) = 1 then 0 else q.val; rw [if_neg (by decide)])

/-! ## From the blocks to the array -/

section Blocks
variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the two row-blocked inputs and the output sit at row block `t`,
    column block 0; the weights and the bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The output array as one function of the arrays the launch finds: node features, aggregate, weights, bias row. -/
abbrev outArr (c : Dev nD) : S50000x128.Idx → EReal :=
  Cert.Gine.outputs (Ideal.ofBits .f32 0x3F800000#32) (V c main_arg0) (V c main_v7) (V c main_arg6)
    (fun q => V c main_v8 (ix2 (0 : Fin 1) q))

/-- Equal rows, equal outputs. -/
theorem nodeOut_congr (one : EReal) {n n' g g' : Fin 128 → EReal} {W W' : Fin 128 → Fin 128 → EReal}
    {b b' : Fin 128 → EReal} {q q' : Fin 128} (hn : n = n') (hg : g = g') (hW : W = W') (hb : b = b') (hq : q = q') :
    Cert.Gine.nodeOut one n g W b q = Cert.Gine.nodeOut one n' g' W' b' q' := by
  subst hn hg hW hb hq; rfl

/-- The body's store at a general index of its block. -/
theorem pay_apply' (v0 v3 : Vec Ideal S5000x128 .f32) (v7 : Vec Ideal S128x128 .f32) (v10 : Vec Ideal S1x128 .f32)
    (j : S5000x128.Idx) :
    k1_pay1 (F := Ideal) v0 v3 v7 v10 j
      = Cert.Gine.nodeOut (Ideal.ofBits .f32 0x3F800000#32)
          (fun k => v0 (ix2 (⟨(j 0).val, idx2_lt0 j⟩ : Fin 5000) k)) (fun k => v3 (ix2 (⟨(j 0).val, idx2_lt0 j⟩ : Fin 5000) k))
          (fun k q => v7 (ix2 k q)) (fun q => v10 (ix2 (0 : Fin 1) q)) (⟨(j 1).val, idx2_lt1 j⟩ : Fin 128) := by
  obtain ⟨p, q, rfl⟩ : ∃ (p : Fin 5000) (q : Fin 128), j = ix2 p q := ⟨j 0, j 1, eq_ix2 j⟩
  exact pay_apply v0 v3 v7 v10 p q

/-- WHAT POINT `t` WRITES BACK is block `t` of `outArr`. -/
theorem flushed_eq (c : Dev nD) (t : Fin cfg1.N) :
    (dat1 V c).flushed 4 t = ((cfg1.win 4).blk t).view.read (Elt Ideal) (outArr V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41⟩ := idx_facts t
  funext j
  show k1_pay1 (F := Ideal) (iblk1 V c 0 t) (iblk1 V c 1 t) (iblk1 V c 2 t) (iblk1 V c 3 t) j
    = outArr V c (((cfg1.win 4).blk t).view.emb j)
  refine (pay_apply' (iblk1 V c 0 t) (iblk1 V c 1 t) (iblk1 V c 2 t) (iblk1 V c 3 t) j).trans ?_
  have hj0 : (j 0).val < 5000 := (j 0).isLt
  have hj1 : (j 1).val < 128 := (j 1).isLt
  refine nodeOut_congr _ (funext fun k => ?_) (funext fun k => ?_) (funext fun k => funext fun q => ?_) (funext fun q => ?_) ?_
  · show V c main_arg0 (((cfg1.win 0).blk t).view.emb (ix2 (⟨(j 0).val, idx2_lt0 j⟩ : Fin 5000) k)) = V c main_arg0 _
    refine congrArg (V c main_arg0) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  · show V c main_v7 (((cfg1.win 1).blk t).view.emb (ix2 (⟨(j 0).val, idx2_lt0 j⟩ : Fin 5000) k)) = V c main_v7 _
    refine congrArg (V c main_v7) (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * k.val = k.val; omega
  · show V c main_arg6 (((cfg1.win 2).blk t).view.emb (ix2 k q)) = V c main_arg6 _
    refine congrArg (V c main_arg6) (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  · show V c main_v8 (((cfg1.win 3).blk t).view.emb (ix2 (0 : Fin 1) q)) = V c main_v8 _
    refine congrArg (V c main_v8) (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  · apply Fin.ext
    show (j 1).val = win1_4.index t (1 : Fin 2) * 128 + 1 * (j 1).val
    omega

/-- An index of the array is in point `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v9).slice (win1_4.rect t)).set ↔ _
  rw [View.set_slice_whole, Rect.mem_set_unit]
  exact Iff.rfl

/-- Every row of the array lies in the block of the point `row / 5000`. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  let t : Fin cfg1.N := ⟨(i 0).val / 5000, by show (i 0).val / 5000 < 10; omega⟩
  have ht : t.val = (i 0).val / 5000 := rfl
  obtain ⟨e00, e01, e10, e11, e20, e21, e30, e31, e40, e41⟩ := idx_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE OUTPUT ARRAY when the launch ends. -/
theorem final (c : Dev nD) : (dat1 V c).arrAt 4 cfg1.N = outArr V c :=
  (dat1 V c).arrAt_eq_of_cover 4 (outArr V c) (fun t _ => flushed_eq V c t) cover

end Blocks

end Cert.KernelIdeal.ApplyValue

end
-- ==== Proof.KernelValue.lean ====
/-
  The kernel's result array as ONE term of its arguments. The program is: the take of the node rows at the source
  indices; two reshapes of bias vectors into rows; the first launch (messages, Proof/EdgeValue.lean); widening the
  sixteen-bit messages (the identity on the extended reals) and scatter-adding them at the destination indices into
  zeros; a third reshape; the second launch (outputs, Proof/ApplyValue.lean). Each launch's output is a function of the
  arrays it finds at entry; what it finds is read off the host operations before it. A reshaped bias vector read at
  (0, k) is the vector at k: same row-major position.
-/
import proofs.«417726_j42691974922448_3_alg».proof.Proof.Gen.KernelIdeal.Frame
import proofs.«417726_j42691974922448_3_alg».proof.Proof.Spec
import proofs.«417726_j42691974922448_3_alg».proof.Proof.Take
import proofs.«417726_j42691974922448_3_alg».proof.Proof.EdgeValue
import proofs.«417726_j42691974922448_3_alg».proof.Proof.ApplyValue
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-! ## A reshaped vector read as a row -/

theorem row64 (b : FVec Ideal S64 .f32) (k : Fin 64) :
    shapeCast S1x64 b shapeCasts_S64_S1x64 (ix2 (0 : Fin 1) k) = b (ix1 k) :=
  shapeCast_apply b shapeCasts_S64_S1x64 (ix2 (0 : Fin 1) k) (ix1 k) (by
    rw [Shape.rowMajor_val_one, Shape.rowMajor_val_two]; show k.val = 0 * 64 + k.val; omega)

theorem row128 (b : FVec Ideal S128 .f32) (q : Fin 128) :
    shapeCast S1x128 b shapeCasts_S128_S1x128 (ix2 (0 : Fin 1) q) = b (ix1 q) :=
  shapeCast_apply b shapeCasts_S128_S1x128 (ix2 (0 : Fin 1) q) (ix1 q) (by
    rw [Shape.rowMajor_val_one, Shape.rowMajor_val_two]; show q.val = 0 * 128 + q.val; omega)

/-! ## What the first launch finds -/

/-- Contents carried to a buffer's own type and back are the contents. -/
theorem ofBuf_toBuf {Val : EltTy → Type} {T : BufTy} (x : TRef sig T) (v : T.Contents Val) : x.ofBuf (x.toBuf v) = v := by
  obtain ⟨r, h, h2, h3⟩ := x
  subst h
  rfl

set_option maxHeartbeats 8000000 in
/-- After the take's operations the gathered rows hold the take of the node rows at the source indices (each array
    read at its buffer's own type). -/
theorem take_read_typed (W : Valuation τ sig (Elt Ideal)) :
    (TRef.of main_v0 : TRef sig ⟨S800000x128, .f32⟩).ofBuf (StableHlo.after hostOps0 W (Proc.devRef .tc main_v0))
      = Take.takeRows ((TRef.of main_arg0 : TRef sig ⟨S50000x128, .f32⟩).ofBuf (W (Proc.devRef .tc main_arg0)))
          ((TRef.of main_arg8 : TRef sig ⟨S800000, .i32⟩).ofBuf (W (Proc.devRef .tc main_arg8))) := by
  after_results
  simp only [ofBuf_toBuf]
  unfold Take.takeRows Take.inRange Take.wrapIdx
  rfl

/-- The same, the types being the buffers' own. -/
theorem take_read (W : Valuation τ sig (Elt Ideal)) :
    StableHlo.after hostOps0 W (Proc.devRef .tc main_v0)
      = Take.takeRows (W (Proc.devRef .tc main_arg0)) (W (Proc.devRef .tc main_arg8)) :=
  take_read_typed W

theorem V2_v0 (c : Dev nD) : V2 m ρ c main_v0
    = Take.takeRows (m ((c : Thread nD τ).loc main_arg0)) (m ((c : Thread nD τ).loc main_arg8)) := by
  show StableHlo.after hostOps0_1 (W1 m ρ c) (Proc.devRef .tc main_v0) = _
  rw [show StableHlo.after hostOps0_1 (W1 m ρ c) (Proc.devRef .tc main_v0) = W1 m ρ c (Proc.devRef .tc main_v0) from by
    generalize W1 m ρ c = W; after_results]
  exact take_read (W0 m ρ c)

theorem V2_arg1 (c : Dev nD) : V2 m ρ c main_arg1 = m ((c : Thread nD τ).loc main_arg1) := by
  show StableHlo.after hostOps0_1 (W1 m ρ c) (Proc.devRef .tc main_arg1) = _
  after_results
theorem V2_arg2 (c : Dev nD) : V2 m ρ c main_arg2 = m ((c : Thread nD τ).loc main_arg2) := by
  show StableHlo.after hostOps0_1 (W1 m ρ c) (Proc.devRef .tc main_arg2) = _
  after_results
theorem V2_arg4 (c : Dev nD) : V2 m ρ c main_arg4 = m ((c : Thread nD τ).loc main_arg4) := by
  show StableHlo.after hostOps0_1 (W1 m ρ c) (Proc.devRef .tc main_arg4) = _
  after_results
theorem V2_v1 (c : Dev nD) : V2 m ρ c main_v1 = shapeCast S1x64 (m ((c : Thread nD τ).loc main_arg3)) shapeCasts_S64_S1x64 := by
  show StableHlo.after hostOps0_1 (W1 m ρ c) (Proc.devRef .tc main_v1) = _
  after_results; rfl
theorem V2_v2 (c : Dev nD) : V2 m ρ c main_v2 = shapeCast S1x128 (m ((c : Thread nD τ).loc main_arg5)) shapeCasts_S128_S1x128 := by
  show StableHlo.after hostOps0_1 (W1 m ρ c) (Proc.devRef .tc main_v2) = _
  after_results; rfl

/-- The messages the first launch leaves, as a term of the arguments. -/
abbrev msgs (c : Dev nD) : FVec Ideal S800000x128 .bf16 :=
  Cert.Gine.messages (Ideal.ofBits .f32 0x00000000#32) (m ((c : Thread nD τ).loc main_arg1))
    (Take.takeRows (m ((c : Thread nD τ).loc main_arg0)) (m ((c : Thread nD τ).loc main_arg8)))
    (m ((c : Thread nD τ).loc main_arg2)) (fun k => m ((c : Thread nD τ).loc main_arg3) (ix1 k))
    (m ((c : Thread nD τ).loc main_arg4)) (fun q => m ((c : Thread nD τ).loc main_arg5) (ix1 q))

theorem W3_v3 (c : Dev nD) : W3 m ρ c (Proc.devRef .tc main_v3) = msgs m c := by
  refine (W3_arr m ρ c 6).trans ((EdgeValue.final (V2 m ρ) c).trans ?_)
  show Cert.Gine.messages _ (V2 m ρ c main_arg1) (V2 m ρ c main_v0) (V2 m ρ c main_arg2)
    (fun k => V2 m ρ c main_v1 (ix2 (0 : Fin 1) k)) (V2 m ρ c main_arg4) (fun q => V2 m ρ c main_v2 (ix2 (0 : Fin 1) q)) = _
  rw [V2_arg1, V2_v0, V2_arg2, V2_arg4]
  refine congrArg₂ (fun b0 b1 => Cert.Gine.messages (Ideal.ofBits .f32 0x00000000#32) (m ((c : Thread nD τ).loc main_arg1))
    (Take.takeRows (m ((c : Thread nD τ).loc main_arg0)) (m ((c : Thread nD τ).loc main_arg8))) (m ((c : Thread nD τ).loc main_arg2)) b0
    (m ((c : Thread nD τ).loc main_arg4)) b1) (funext fun k => ?_) (funext fun q => ?_)
  · rw [V2_v1]; exact row64 _ k
  · rw [V2_v2]; exact row128 _ q

/-! ## What the second launch finds -/

theorem W3_arg (c : Dev nD) (b : Ref sig .tc) (hb : ∀ w, Pipeline.arrRef spec0 w ≠ b)
    (h : StableHlo.after hostOps0_1 (W1 m ρ c) (Proc.devRef .tc b) = m ((c : Thread nD τ).loc b)) :
    W3 m ρ c (Proc.devRef .tc b) = m ((c : Thread nD τ).loc b) :=
  (W3_of_ne m ρ c b hb).trans h

theorem W3_arg0 (c : Dev nD) : W3 m ρ c (Proc.devRef .tc main_arg0) = m ((c : Thread nD τ).loc main_arg0) :=
  W3_arg m ρ c main_arg0 (by decide) (by after_results)
theorem W3_arg6 (c : Dev nD) : W3 m ρ c (Proc.devRef .tc main_arg6) = m ((c : Thread nD τ).loc main_arg6) :=
  W3_arg m ρ c main_arg6 (by decide) (by after_results)
theorem W3_arg7 (c : Dev nD) : W3 m ρ c (Proc.devRef .tc main_arg7) = m ((c : Thread nD τ).loc main_arg7) :=
  W3_arg m ρ c main_arg7 (by decide) (by after_results)
theorem W3_arg9 (c : Dev nD) : W3 m ρ c (Proc.devRef .tc main_arg9) = m ((c : Thread nD τ).loc main_arg9) :=
  W3_arg m ρ c main_arg9 (by decide) (by after_results)

theorem V4_arg0 (c : Dev nD) : V4 m ρ c main_arg0 = m ((c : Thread nD τ).loc main_arg0) := by
  show StableHlo.after hostOps1 (W3 m ρ c) (Proc.devRef .tc main_arg0) = _
  after_results; exact W3_arg0 m ρ c
theorem V4_arg6 (c : Dev nD) : V4 m ρ c main_arg6 = m ((c : Thread nD τ).loc main_arg6) := by
  show StableHlo.after hostOps1 (W3 m ρ c) (Proc.devRef .tc main_arg6) = _
  after_results; exact W3_arg6 m ρ c
theorem V4_v8 (c : Dev nD) : V4 m ρ c main_v8 = shapeCast S1x128 (m ((c : Thread nD τ).loc main_arg7)) shapeCasts_S128_S1x128 := by
  show StableHlo.after hostOps1 (W3 m ρ c) (Proc.devRef .tc main_v8) = _
  after_results
  rw [W3_arg7]; rfl

/-- The aggregate: the widened messages added into zeros at the destination indices. -/
abbrev aggr (c : Dev nD) : FVec Ideal S50000x128 .f32 :=
  Host.scatterAdd scatter_S50000x128_S800000x1_S800000x128_1_0_0_1 (broadcastInDim S50000x128 ![] bcast_S_S50000x128 (constant (F := Ideal) S_ .f32 0x00000000#32))
    (broadcastInDim S800000x1 ![0] bcast_S800000_S800000x1_0 (m ((c : Thread nD τ).loc main_arg9)))
    (extf .f32 (msgs m c) bitsLt_bf16_f32)

theorem V4_v7 (c : Dev nD) : V4 m ρ c main_v7 = aggr m c := by
  show StableHlo.after hostOps1 (W3 m ρ c) (Proc.devRef .tc main_v7) = _
  after_results
  rw [W3_arg9, W3_v3]

/-! ## The result -/

/-- THE RESULT ARRAY at the last boundary, as a term of the arguments. -/
theorem result (c : Dev nD) :
    W5 m ρ c (Proc.devRef .tc main_v9)
      = Cert.Gine.outputs (Ideal.ofBits .f32 0x3F800000#32) (m ((c : Thread nD τ).loc main_arg0)) (aggr m c)
          (m ((c : Thread nD τ).loc main_arg6)) (fun q => m ((c : Thread nD τ).loc main_arg7) (ix1 q)) := by
  refine (W5_arr m ρ c 4).trans ((ApplyValue.final (V4 m ρ) c).trans ?_)
  show Cert.Gine.outputs _ (V4 m ρ c main_arg0) (V4 m ρ c main_v7) (V4 m ρ c main_arg6)
    (fun q => V4 m ρ c main_v8 (ix2 (0 : Fin 1) q)) = _
  rw [V4_arg0, V4_v7, V4_arg6]
  refine congrArg (fun b => Cert.Gine.outputs (Ideal.ofBits .f32 0x3F800000#32) (m ((c : Thread nD τ).loc main_arg0)) (aggr m c)
    (m ((c : Thread nD τ).loc main_arg6)) b) (funext fun q => ?_)
  rw [V4_v8]; exact row128 _ q

end Cert.KernelIdeal.KernelValue

end
-- ==== Proof.RefValue.lean ====
/-
  The reference, stage by stage, is the same two row functions. Its message stage: `max (node_feat[src] + max (max (E·W0
  + b0) 0 · W1 + b1) 0) 0`, whose entry (p, q) needs row `p` of the edge features and entry (p, q) of the gathered rows —
  `Cert.Gine.messages`. Its output stage: `(1 · N + G) · Wa + ba`, whose entry (p, q) needs row `p` of the node features
  and of the aggregate — `Cert.Gine.outputs`, after `1 · n = n · 1`. The gather and the scatter-add are not opened: they
  are the same operations the kernel's program applies.
-/
import proofs.«417726_j42691974922448_3_alg».proof.Proof.Gen.ReferenceIdeal.Run
import proofs.«417726_j42691974922448_3_alg».proof.Proof.Gen.ReferenceIdeal.Read
import proofs.«417726_j42691974922448_3_alg».proof.Proof.Spec
import Idealize.ShloMosaic.Lib.ValueIdx
import Idealize.ShloMosaic.PureOps.Ideal

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The reference's messages are the row function of the whole arrays, the gathered rows kept as they are. -/
theorem msg_eq (x0 : (⟨S50000x128, .f32⟩ : BufTy).Contents (Elt Ideal)) (x1 : (⟨S800000x64, .f32⟩ : BufTy).Contents (Elt Ideal)) (x2 : (⟨S64x64, .f32⟩ : BufTy).Contents (Elt Ideal)) (x3 : (⟨S64, .f32⟩ : BufTy).Contents (Elt Ideal)) (x4 : (⟨S64x128, .f32⟩ : BufTy).Contents (Elt Ideal)) (x5 : (⟨S128, .f32⟩ : BufTy).Contents (Elt Ideal)) (x8 : (⟨S800000, .i32⟩ : BufTy).Contents (Elt Ideal)) :
    val_main_v18 (F := Ideal) x0 x1 x2 x3 x4 x5 x8
      = Cert.Gine.messages (Ideal.ofBits .f32 0x00000000#32) x1 (val_main_v16 (F := Ideal) x0 x8) x2 (fun k => x3 (ix1 k)) x4
          (fun q => x5 (ix1 q)) := by
  funext i
  obtain ⟨p, q, rfl⟩ : ∃ (p : Fin 800000) (q : Fin 128), i = ix2 p q := ⟨i 0, i 1, eq_ix2 i⟩
  have hl5 : ∀ k : Fin 64, lidx_main_v5 (ix2 p q) k = ix2 p k := fun k => funext fun a => Fin.ext (by
    match a with | ⟨0, _⟩ => rfl | ⟨1, _⟩ => rfl)
  have hr5 : ∀ k : Fin 64, ridx_main_v5 (ix2 p q) k = ix2 k q := fun k => funext fun a => Fin.ext (by
    match a with | ⟨0, _⟩ => rfl | ⟨1, _⟩ => rfl)
  have hl0 : ∀ (k j : Fin 64), lidx_main_v0 (ix2 p k) j = ix2 p j := fun k j => funext fun a => Fin.ext (by
    match a with | ⟨0, _⟩ => rfl | ⟨1, _⟩ => rfl)
  have hr0 : ∀ (k j : Fin 64), ridx_main_v0 (ix2 p k) j = ix2 j k := fun k j => funext fun a => Fin.ext (by
    match a with | ⟨0, _⟩ => rfl | ⟨1, _⟩ => rfl)
  have h2 : ∀ k : Fin 64, idx_main_v1 (idx_main_v2 (ix2 p k)) = ix1 k := fun k => funext fun a => Fin.ext (by
    match a with | ⟨0, _⟩ => rfl)
  have h7 : idx_main_v6 (idx_main_v7 (ix2 p q)) = ix1 q := funext fun a => Fin.ext (by
    match a with | ⟨0, _⟩ => rfl)
  simp only [val_main_v18_apply, val_main_v17_apply, val_main_v9_apply, val_main_v8_apply, val_main_v5_apply, hl5, hr5,
    val_main_v4_apply, val_main_v3_apply, val_main_v0_apply, hl0, hr0, val_main_v2_apply, val_main_v1_apply, h2,
    val_main_v7_apply, val_main_v6_apply, h7, val_main_call0_v0_apply, val_main_call1_v0_apply, val_main_call2_v0_apply,
    val_main_call0_cst_apply, val_main_call1_cst_apply, val_main_call2_cst_apply]
  rfl

/-- The reference's result is the row function of the node features and its aggregate. -/
theorem out_eq (x0 : (⟨S50000x128, .f32⟩ : BufTy).Contents (Elt Ideal)) (x1 : (⟨S800000x64, .f32⟩ : BufTy).Contents (Elt Ideal)) (x2 : (⟨S64x64, .f32⟩ : BufTy).Contents (Elt Ideal)) (x3 : (⟨S64, .f32⟩ : BufTy).Contents (Elt Ideal)) (x4 : (⟨S64x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S800000, .i32⟩ : BufTy).Contents (Elt Ideal)) (x9 : (⟨S800000, .i32⟩ : BufTy).Contents (Elt Ideal)) :
    val_main_v28 (F := Ideal) x0 x1 x2 x3 x4 x5 x6 x7 x8 x9
      = Cert.Gine.outputs (Ideal.ofBits .f32 0x3F800000#32) x0 (val_main_v21 (F := Ideal) x0 x1 x2 x3 x4 x5 x8 x9) x6
          (fun q => x7 (ix1 q)) := by
  funext i
  obtain ⟨p, q, rfl⟩ : ∃ (p : Fin 50000) (q : Fin 128), i = ix2 p q := ⟨i 0, i 1, eq_ix2 i⟩
  have hl : ∀ k : Fin 128, lidx_main_v25 (ix2 p q) k = ix2 p k := fun k => funext fun a => Fin.ext (by
    match a with | ⟨0, _⟩ => rfl | ⟨1, _⟩ => rfl)
  have hr : ∀ k : Fin 128, ridx_main_v25 (ix2 p q) k = ix2 k q := fun k => funext fun a => Fin.ext (by
    match a with | ⟨0, _⟩ => rfl | ⟨1, _⟩ => rfl)
  have h27 : idx_main_v26 (idx_main_v27 (ix2 p q)) = ix1 q := funext fun a => Fin.ext (by
    match a with | ⟨0, _⟩ => rfl)
  simp only [val_main_v28_apply, val_main_v25_apply, hl, hr, val_main_v24_apply, val_main_v23_apply, val_main_v22_apply,
    val_main_cst_1_apply, val_main_v27_apply, val_main_v26_apply, h27]
  unfold Cert.Gine.outputs Cert.Gine.nodeOut
  refine congrArg₂ (· + ·) (Finset.sum_congr rfl fun k _ => ?_) rfl
  show (Ideal.ofBits .f32 0x3F800000#32 * x0 (ix2 p k) + val_main_v21 (F := Ideal) x0 x1 x2 x3 x4 x5 x8 x9 (ix2 p k)) * x6 (ix2 k q)
    = (x0 (ix2 p k) * Ideal.ofBits .f32 0x3F800000#32 + val_main_v21 (F := Ideal) x0 x1 x2 x3 x4 x5 x8 x9 (ix2 p k)) * x6 (ix2 k q)
  rw [mul_comm (Ideal.ofBits .f32 0x3F800000#32)]

end Cert.ReferenceIdeal.RefValue

end
-- ==== Proof.Bridge.lean ====
/-
  The two programs' result terms are one function of the arguments, when every source index is in range.
  Kernel: `outputs (node_feat, scatter-add (messages (edge_feat, TAKE (node_feat, src), …)), Wa, ba)`; reference: the same
  with the plain gather in the take's place, its stages being the same row functions (Proof/RefValue.lean). In range the
  take is the gather (Proof/Take.lean); the gather's start indices, the scatter-add and its destination indices are the
  same operations on the same arrays in both programs; widening sixteen-bit messages is the identity on the extended reals.
-/
import proofs.«417726_j42691974922448_3_alg».proof.Proof.Spec
import proofs.«417726_j42691974922448_3_alg».proof.Proof.Take
import proofs.«417726_j42691974922448_3_alg».proof.Proof.RefValue
import Idealize.ShloMosaic.Lib.ValueIdx
import Idealize.ShloMosaic.PureOps.Ideal

noncomputable section

namespace Cert.KernelIdeal.Bridge

open Cert.KernelIdeal Cert.KernelIdeal.Gen
open Idealize.ShloMosaic Idealize.ShloMosaic.TcCoe Idealize.SL.Sem Idealize.ShloMosaic.ValueIdx

/-- The kernel's result term, over free arrays. -/
abbrev kernelTerm (x0 : (⟨Cert.ReferenceIdeal.S50000x128, .f32⟩ : BufTy).Contents (Elt Ideal)) (x1 : (⟨Cert.ReferenceIdeal.S800000x64, .f32⟩ : BufTy).Contents (Elt Ideal)) (x2 : (⟨Cert.ReferenceIdeal.S64x64, .f32⟩ : BufTy).Contents (Elt Ideal)) (x3 : (⟨Cert.ReferenceIdeal.S64, .f32⟩ : BufTy).Contents (Elt Ideal)) (x4 : (⟨Cert.ReferenceIdeal.S64x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S800000, .i32⟩ : BufTy).Contents (Elt Ideal)) (x9 : (⟨Cert.ReferenceIdeal.S800000, .i32⟩ : BufTy).Contents (Elt Ideal)) : FVec Ideal S50000x128 .f32 :=
  Cert.Gine.outputs (Ideal.ofBits .f32 0x3F800000#32) x0
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 x9)
      (extf .f32 (Cert.Gine.messages (Ideal.ofBits .f32 0x00000000#32) x1 (Take.takeRows x0 x8) x2
        (fun k => x3 (ix1 k)) x4 (fun q => x5 (ix1 q)) : FVec Ideal S800000x128 .bf16) bitsLt_bf16_f32))
    x6 (fun q => x7 (ix1 q))

/-- THE BRIDGE: the reference's last stage is the kernel's result term. -/
theorem ref_eq_kernel (x0 : (⟨Cert.ReferenceIdeal.S50000x128, .f32⟩ : BufTy).Contents (Elt Ideal)) (x1 : (⟨Cert.ReferenceIdeal.S800000x64, .f32⟩ : BufTy).Contents (Elt Ideal)) (x2 : (⟨Cert.ReferenceIdeal.S64x64, .f32⟩ : BufTy).Contents (Elt Ideal)) (x3 : (⟨Cert.ReferenceIdeal.S64, .f32⟩ : BufTy).Contents (Elt Ideal)) (x4 : (⟨Cert.ReferenceIdeal.S64x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S800000, .i32⟩ : BufTy).Contents (Elt Ideal)) (x9 : (⟨Cert.ReferenceIdeal.S800000, .i32⟩ : BufTy).Contents (Elt Ideal))
    (hs : ∀ i : S800000.Idx, (-50000 : Int) ≤ (x8 i).toInt ∧ (x8 i).toInt < 50000) :
    Cert.ReferenceIdeal.Read.val_main_v28 (F := Ideal) x0 x1 x2 x3 x4 x5 x6 x7 x8 x9
      = kernelTerm x0 x1 x2 x3 x4 x5 x6 x7 x8 x9 := by
  rw [Cert.ReferenceIdeal.RefValue.out_eq]
  refine congrArg (fun G => Cert.Gine.outputs (Ideal.ofBits .f32 0x3F800000#32) x0 G x6 (fun q => x7 (ix1 q))) ?_
  unfold Cert.ReferenceIdeal.Read.val_main_v21
  rw [Cert.ReferenceIdeal.RefValue.msg_eq, Take.takeRows_eq x8 hs x0]
  rfl

end Cert.KernelIdeal.Bridge

end
-- ==== Proof.lean ====
/-
  One graph-convolution layer with edge features: for every edge, a two-layer transform of the edge's features, added to
  the features of the edge's source node and cut at zero (the message); for every node, the sum of the messages of the
  edges that point at it, added to the node's own features; then one linear map. The kernel computes the messages and the
  linear map in two tiled launches (a hundred blocks of 8000 edges; ten blocks of 5000 nodes), with the row gather and the
  scatter-add between them on the host; the reference computes the same on whole arrays.

  On the extended reals the two agree entry by entry, with no law that needs finiteness: each entry of either program is
  the SAME expression of one edge's (or one node's) rows — `Cert.Gine.edgeMsg`, `Cert.Gine.nodeOut` — and the tiling only
  decides which launch point evaluates it (Proof/EdgeValue.lean, Proof/ApplyValue.lean; the reference in
  Proof/RefValue.lean). The one place the programs differ is the row gather: the kernel's `take` replaces a row whose
  source index is out of range by a fill, the reference's indexing reads the nearest row. The precondition keeps every
  source index in [-50000, 50000) (Proof/PreRange.lean), where the take is the plain gather (Proof/Take.lean).
  The frames of the two kernel programs are the generated ones; the reference's is its generated run with the result
  dropped; the idealization rewrote nothing, so `preserves` has nothing to state.
-/
import proofs.«417726_j42691974922448_3_alg».proof.Defs
import proofs.«417726_j42691974922448_3_alg».proof.Proof.Gen.Kernel
import proofs.«417726_j42691974922448_3_alg».proof.Proof.Gen.Kernel.Frame
import proofs.«417726_j42691974922448_3_alg».proof.Proof.Gen.KernelIdeal
import proofs.«417726_j42691974922448_3_alg».proof.Proof.Gen.KernelIdeal.Frame
import proofs.«417726_j42691974922448_3_alg».proof.Proof.Gen.ReferenceIdeal
import proofs.«417726_j42691974922448_3_alg».proof.Proof.Gen.ReferenceIdeal.Run
import proofs.«417726_j42691974922448_3_alg».proof.Proof.Gen.ReferenceIdeal.Read
import proofs.«417726_j42691974922448_3_alg».proof.Proof.Gen.Pre_finite_inputs
import proofs.«417726_j42691974922448_3_alg».proof.Proof.PreRange
import proofs.«417726_j42691974922448_3_alg».proof.Proof.RunResult
import proofs.«417726_j42691974922448_3_alg».proof.Proof.KernelValue
import proofs.«417726_j42691974922448_3_alg».proof.Proof.Bridge

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at `Cert.Proof.Cert.KernelIdeal.Bridge.kernelTerm` of the arguments: the kernel by its two
    launches' values composed through the host operations, the reference by its stages, the take being the gather where
    the source indices are in range. -/
theorem algebraic : Cert.algebraic_KernelIdeal_ReferenceIdeal := by
  intro m ρ m' ρ' hpre hagree
  refine ⟨fun c => Cert.KernelIdeal.Bridge.kernelTerm (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KernelValue.result m ρ c), (h c).2⟩)
      (Cert.KernelIdeal.RunResult.run_result m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [e0, e1, e2, e3, e4, e5, e6, e7, e8, e9]
    exact Cert.KernelIdeal.Bridge.ref_eq_kernel _ _ _ _ _ _ _ _ _ _
      (Cert.Pre_finite_inputs.Range.src_range _ _ _ _ _ _ _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
